-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 69
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x64, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x64, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000, .f32⟩
  | .hbm, ⟨84, _⟩ => ⟨S50000x1, .f32⟩
  | .hbm, ⟨85, _⟩ => ⟨S50000x1, .f32⟩
  | .hbm, ⟨86, _⟩ => ⟨S50000x64, .f32⟩
  | .hbm, ⟨87, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v52 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/- The layer's two dense pieces as mathematics on the extended reals, index by index.

   An array of `n` rows of 64 features is a function on the index type of shape [n, 64].

   * `dense x w`: the product of `x` ([n, 64]) with a 64 x 64 matrix `w`: entry (r, c) is the sum over
     k of x[r, k] * w[k, c]. Addition of extended reals is commutative and associative, so the order in
     which a machine adds the 64 products does not matter.
   * `lsmRow v`: the log-softmax of one row `v` of 64 entries, computed stably: with M the maximum of the
     row, entry q is (v q - M) - log (sum over k of exp (v k - M)).
   * `epi a bias`: add the bias to every row of `a`, clamp below at zero, and take the log-softmax of each
     row; entry (r, c) depends on row r of `a` only.

   Both are stated for any number of rows, so that one statement serves a block of rows and the whole
   array: a block of rows of `dense x w` is `dense` of that block of rows of `x`, and likewise for `epi`. -/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The index (row of `i`, column `k`) of an array of `n` rows of 64. -/
abbrev atRow {n : Nat} (i : (⟨2, ![n, 64]⟩ : Shape).Idx) (k : Fin 64) : (⟨2, ![n, 64]⟩ : Shape).Idx := fun a => match a with
  | ⟨0, _⟩ => ⟨(i 0).val, (i 0).isLt⟩
  | ⟨1, _⟩ => ⟨k.val, k.isLt⟩

/-- The index (row `k`, column of `i`) of the 64 x 64 matrix. -/
abbrev atCol {n : Nat} (i : (⟨2, ![n, 64]⟩ : Shape).Idx) (k : Fin 64) : (⟨2, ![64, 64]⟩ : Shape).Idx := fun a => match a with
  | ⟨0, _⟩ => ⟨k.val, k.isLt⟩
  | ⟨1, _⟩ => ⟨(i 1).val, (i 1).isLt⟩

/-- The column of `i`, as a number below 64. -/
abbrev colOf {n : Nat} (i : (⟨2, ![n, 64]⟩ : Shape).Idx) : Fin 64 := ⟨(i 1).val, (i 1).isLt⟩

/-- The matrix product: entry (r, c) is the sum over k of x[r, k] * w[k, c]. -/
def dense {n : Nat} (x : (⟨2, ![n, 64]⟩ : Shape).Idx → EReal) (w : (⟨2, ![64, 64]⟩ : Shape).Idx → EReal) :
    (⟨2, ![n, 64]⟩ : Shape).Idx → EReal :=
  fun i => ∑ k : Fin 64, x (atRow i k) * w (atCol i k)

/-- The maximum of a row of 64 extended reals, folded from minus infinity (the float word 0xFF800000). -/
def rowMax (v : Fin 64 → EReal) : EReal :=
  (Finset.univ : Finset (Fin 64)).fold max (Ideal.ofBits .f32 0xFF800000#32) v

/-- The log-softmax of a row, computed stably: (v q - M) - log (sum over k of exp (v k - M)), M the row's maximum. -/
def lsmRow (v : Fin 64 → EReal) (q : Fin 64) : EReal :=
  (v q - rowMax v) - Ideal.log (∑ k : Fin 64, Ideal.exp (v k - rowMax v))

/-- Bias, clamp at zero, log-softmax along each row. -/
def epi {n : Nat} (a : (⟨2, ![n, 64]⟩ : Shape).Idx → EReal) (bias : Fin 64 → EReal) :
    (⟨2, ![n, 64]⟩ : Shape).Idx → EReal :=
  fun i => lsmRow (fun k => max (a (atRow i k) + bias k) (Ideal.ofBits .f32 0x00000000#32)) (colOf i)

/-- Folding the maximum from minus infinity: taking the maximum with minus infinity once more changes nothing. -/
theorem max_negInf (y : EReal) : max (Ideal.ofBits .f32 0xFF800000#32) y = y := by
  simp [Ideal.ofBits, Ideal.ieee]

/-- `atRow` at explicit coordinates. -/
theorem atRow_ix2 {n : Nat} (p : Fin n) (q k : Fin 64) : atRow (ix2 p q) k = ix2 p k := by
  funext a; match a with
  | ⟨0, _⟩ => rfl
  | ⟨1, _⟩ => rfl

/-- `atCol` at explicit coordinates. -/
theorem atCol_ix2 {n : Nat} (p : Fin n) (q k : Fin 64) : atCol (ix2 p q) k = ix2 k q := by
  funext a; match a with
  | ⟨0, _⟩ => rfl
  | ⟨1, _⟩ => rfl

theorem colOf_ix2 {n : Nat} (p : Fin n) (q : Fin 64) : colOf (ix2 p q) = q := rfl

end Cert.GcnSpec

end
-- ==== Proof.KernelMatmul.lean ====
/- The first region of the idealized kernel: ten grid points, point t holding rows 5000 t … 5000 t + 4999 of x and
   the whole 64 x 64 matrix w, each storing the product of its block of rows with w.

   At the ideal values rounding to a narrower float format is the identity and a matrix product into a zero accumulator
   is the plain sum over the contracted index, so the body's stored value is `dense` of its two loaded blocks. A block of
   rows of `dense x w` is `dense` of that block of rows of x (entry (r, c) of the product reads row r of x only), so what
   point t writes back is block t of `dense x w`; the ten blocks cover the array, which therefore ends holding
   `dense x w`, for whatever contents x and w the region is entered with. -/
import proofs.«167426_j22247930594050_1_alg».proof.Proof.Gen.KernelIdeal.Frame
import proofs.«167426_j22247930594050_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.GcnKernel

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

/-! ## The body's product at an index -/

theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The stored value of the first body is the product of its two loaded blocks: the change of format is the identity at
    the ideal values and the product starts from zero. -/
theorem pay_mm (x0 : Vec Ideal S5000x64 .f32) (x1 : Vec Ideal S64x64 .f32) :
    k0_pay1 (F := Ideal) x0 x1 = dense (n := 5000) x0 x1 := by
  funext i
  unfold k0_pay1 dense
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = atRow i k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx i ((ValueIdx.contrEquiv1 dot_S5000x64_S64x64_S5000x64_1_0_0_1_n_n 64 rfl rfl).symm k) = atCol i k := funext fun a => Fin.ext (by
    match a with
    | ⟨0, _⟩ => exact (rhs_mm_0 _ _).trans hk
    | ⟨1, _⟩ => exact rhs_mm_1 _ _)
  rw [el, er]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The two arrays the region is entered with, and their blocks at point t, at their literal types. -/
abbrev xIn (c : Dev nD) : FVec Ideal S50000x64 .f32 := V c main_arg0
abbrev wIn (c : Dev nD) : FVec Ideal S64x64 .f32 := V c main_arg2
abbrev xBlk (c : Dev nD) (t : Fin cfg0.N) : FVec Ideal S5000x64 .f32 := iblk0 V c 0 t
abbrev wBlk (c : Dev nD) (t : Fin cfg0.N) : FVec Ideal S64x64 .f32 := iblk0 V c 1 t

/-- The block indices of the three windows at point t: rows block t for x and the product, the one block of w. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region is entered with. -/
theorem flushed_mm (c : Dev nD) (t : Fin cfg0.N) :
    (dat0 V c).flushed 2 t = ((cfg0.win 2).blk t).view.read (Elt Ideal) (dense (n := 50000) (xIn V c) (wIn V c)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  rw [pay_mm]
  obtain ⟨e0, e1, e2, e3, e4, e5⟩ := blockIdx0 t
  funext j
  show dense (n := 5000) (xBlk V c t) (wBlk V c t) j = dense (n := 50000) (xIn V c) (wIn V c) (((cfg0.win 2).blk t).view.emb j)
  unfold dense
  refine Finset.sum_congr rfl fun k _ => ?_
  have h0 : ((cfg0.win 0).blk t).view.emb (atRow (n := 5000) j k) = atRow (n := 50000) (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (atCol (n := 5000) j k) = atCol (n := 50000) (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  show xIn V c (((cfg0.win 0).blk t).view.emb (atRow (n := 5000) j k)) * wIn V c (((cfg0.win 1).blk t).view.emb (atCol (n := 5000) j k)) = _
  rw [h0, h1]

/-- An index of the product array is in point t's block iff each coordinate is in the block's range on its axis. -/
theorem mem_blk_mm (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- Row r lies in the block of point r / 5000: the ten blocks cover the array. -/
theorem cover_mm (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := blockIdx0 t
  refine ⟨t, flush0_2 t, ?_⟩
  rw [mem_blk_mm]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The product array after the first region: `dense` of x and w as the region finds them. -/
theorem final_mm (c : Dev nD) : (dat0 V c).arrAt 2 cfg0.N = dense (n := 50000) (xIn V c) (wIn V c) :=
  (dat0 V c).arrAt_eq_of_cover 2 (dense (n := 50000) (xIn V c) (wIn V c)) (fun t _ => flushed_mm V c t) cover_mm

end Cert.GcnKernel

end
-- ==== Proof.LibRowOps.lean ====
/- Reductions along the rows of a matrix, kept as a column and spread back over the row, read at an index of
   explicit coordinates, at the ideal values (floats as extended reals).

   A row reduction of an [a, b] matrix gives an [a] vector; "keepdims" casts it to an [a, 1] column; a broadcast
   spreads the column back to [a, b]. Read at (p, c) the result is the reduction of row p, whatever c:
   * `shapeCast_a_a1_apply`: an [a] vector cast to an [a, 1] column reads, at (p, 0), the vector at p;
   * `broadcastTo_a1_ab_apply`: an [a, 1] column broadcast to [a, b] reads, at (p, c), the column at (p, 0);
   * `lift_last_ix2`: the reduced index p with the coordinate k put back on the last axis is (p, k);
   * `rowSum_apply`: a sum along the rows (`vector.multi_reduction <add>` over axis 1), read at p, is the sum of
     the 'b' entries of row p;
   * `rowMaxFold_apply`: a maximum along the rows (`vector.multi_reduction <maximumf>` over axis 1), read at p, is
     the fold of `max` from the accumulator's value over the entries of row p;
   * `hostRowMax_apply`: the host's reduction with a maximum body along the rows (`stablehlo.reduce` … `maximum` across
     dimension 1), read at p, is the same fold from the initial value's element. -/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx

variable {α : Type}

/-- An `[a]` array cast to an `[a, 1]` column reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of an `[a, b]` matrix reduced along its rows, with the coordinate `k` put back, is `(p, k)`. -/
theorem lift_last_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows, read at row `p`: the sum of that row's entries. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] (⟨1, ![a]⟩ : Shape) src acc h hφ hacc (ix1 p) = ∑ k : Fin b, src (ix2 p k) := by
  rw [Ideal.multiReduction_add_single]
  exact Finset.sum_congr rfl fun k _ => congrArg src (lift_last_ix2 h p k)

/-- A maximum along the rows, read at row `p`: the fold of `max`, from the accumulator's value, over that row's entries. -/
theorem rowMaxFold_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) := funext fun k => congrArg src (lift_last_ix2 h p k)
  exact congrArg (fun f => Finset.fold max (Ideal.ofBits φ acc) f (Finset.univ : Finset (Fin b))) hf

/-- The host's reduction with a maximum body along the rows, read at row `p`: the fold of `max`, from the initial value's
    element, over that row's entries. -/
theorem hostRowMax_apply {a b : ℕ} (x : FVec Ideal (⟨2, ![a, b]⟩ : Shape) .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce (FloatOps.maximumf (F := Ideal) (φ := .f32)) x init h' hu (ix1 p)
      = (Finset.univ : Finset (Fin b)).fold max (init (Shape.Idx.first hu)) (fun k => x (ix2 p k)) := by
  rw [Host.reduce_eq_fold_single (FloatOps.maximumf (F := Ideal) (φ := .f32)) x init h' h hu]
  have hf : (x ∘ h.lift (ix1 p)) = fun k : Fin b => x (ix2 p k) := funext fun k => congrArg x (lift_last_ix2 h p k)
  exact congrArg (fun f => Finset.fold max (init (Shape.Idx.first hu)) f (Finset.univ : Finset (Fin b))) hf

end Cert.LibRowOps

end
-- ==== Proof.KernelEpilogue.lean ====
/- The second region of the idealized kernel: ten grid points, point t holding rows 5000 t … 5000 t + 4999 of the
   aggregated features and the one row of 64 biases, each storing, row by row, the log-softmax of the biased features
   clamped below at zero.

   The body takes each row's maximum M (a reduction along the row, kept as a column and spread back over the row),
   subtracts it, exponentiates, sums along the row, takes the logarithm and subtracts that too: entry (p, q) is
   (u p q - M p) - log (sum over k of exp (u p k - M p)), which is `lsmRow` of row p of u. Every entry of row p depends on
   row p of the block only, so a block of rows of `epi a bias` is `epi` of that block of rows of a; the ten blocks cover
   the array, which therefore ends holding `epi a bias` for whatever contents the region is entered with. -/
import proofs.«167426_j22247930594050_1_alg».proof.Proof.Gen.KernelIdeal.Frame
import proofs.«167426_j22247930594050_1_alg».proof.Proof.Spec
import proofs.«167426_j22247930594050_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel

open Cert.KernelIdeal Cert.KernelIdeal.Gen Cert.GcnSpec Cert.LibRowOps
open Idealize.ShloMosaic Idealize.ShloMosaic.TcCoe Idealize.ShloMosaic.ValueIdx Idealize.SL.Sem
open Idealize.ShloMosaic.Pipeline (Dat Cfg Window)

/-! ## The body's value at an index -/

/-- The maximum of each row of a block, kept as a column and spread back over the row. -/
abbrev rowMaxB (u : FVec Ideal S5000x64 .f32) : FVec Ideal S5000x64 .f32 :=
  broadcastTo S5000x64 (shapeCast S5000x1 (multiReduction .maximumf [1] S5000 u 0xFF800000#32 reduces_S5000x64_S5000 (.inl rfl) rfl) shapeCasts_S5000_S5000x1) broadcasts_S5000x1_S5000x64

/-- The logarithm of each row's summed exponentials, kept as a column and spread back over the row. -/
abbrev logSumB (v : FVec Ideal S5000x64 .f32) : FVec Ideal S5000x64 .f32 :=
  broadcastTo S5000x64 (log (shapeCast S5000x1 (multiReduction .add [1] S5000 (exp v) 0x00000000#32 reduces_S5000x64_S5000 (.inl rfl) rfl) shapeCasts_S5000_S5000x1)) broadcasts_S5000x1_S5000x64

/-- The row maximum spread over the row, read at (p, k): the maximum of row p. -/
theorem rowMaxB_apply (u : FVec Ideal S5000x64 .f32) (p : Fin 5000) (k : Fin 64) :
    rowMaxB u (ix2 p k) = rowMax (fun k' => u (ix2 p k')) := by
  unfold rowMaxB
  rw [broadcastTo_a1_ab_apply, shapeCast_a_a1_apply]
  exact (rowMaxFold_apply (a := 5000) (b := 64) u 0xFF800000#32 reduces_S5000x64_S5000 (.inl rfl) rfl p).trans rfl

/-- The stable log-softmax along the rows of a block `u`, as the body spells it with a row maximum and a row sum kept as
    columns, is `lsmRow` of the row, entry by entry. -/
theorem lsm_rows (u : FVec Ideal S5000x64 .f32) (p : Fin 5000) (q : Fin 64) :
    (subf (subf u (rowMaxB u)) (logSumB (subf u (rowMaxB u))) : FVec Ideal S5000x64 .f32) (ix2 p q)
      = lsmRow (fun k => u (ix2 p k)) q := by
  have hsh : ∀ k : Fin 64, (subf u (rowMaxB u) : FVec Ideal S5000x64 .f32) (ix2 p k)
      = u (ix2 p k) - rowMax (fun k' => u (ix2 p k')) := fun k => by
    rw [subf_apply, rowMaxB_apply]
  have hsum : (multiReduction .add [1] S5000 (exp (subf u (rowMaxB u))) 0x00000000#32 reduces_S5000x64_S5000 (.inl rfl) rfl : FVec Ideal S5000 .f32) (ix1 p)
      = ∑ k : Fin 64, Ideal.exp (u (ix2 p k) - rowMax (fun k' => u (ix2 p k'))) := by
    refine (rowSum_apply (a := 5000) (b := 64) (exp (subf u (rowMaxB u))) 0x00000000#32 reduces_S5000x64_S5000 (.inl rfl) rfl p).trans ?_
    refine Finset.sum_congr rfl fun k _ => ?_
    show Ideal.exp ((subf u (rowMaxB u) : FVec Ideal S5000x64 .f32) (ix2 p k)) = _
    rw [hsh]
  have hlog : logSumB (subf u (rowMaxB u)) (ix2 p q)
      = Ideal.log (∑ k : Fin 64, Ideal.exp (u (ix2 p k) - rowMax (fun k' => u (ix2 p k')))) := by
    unfold logSumB
    rw [broadcastTo_a1_ab_apply]
    show Ideal.log (shapeCast S5000x1 _ shapeCasts_S5000_S5000x1 (ix2 p (0 : Fin 1))) = _
    rw [shapeCast_a_a1_apply]
    exact congrArg Ideal.log hsum
  rw [subf_apply, hsh, hlog]
  rfl

/-- The stored value of the second body: bias, clamp at zero, log-softmax along each row of the loaded block. -/
theorem pay_epi (x0 : Vec Ideal S1x64 .f32) (x4 : Vec Ideal S5000x64 .f32) :
    k1_pay1 (F := Ideal) x0 x4 = epi (n := 5000) x4 (fun k => x0 (ix2 (0 : Fin 1) k)) := by
  funext j
  obtain ⟨p, q, rfl⟩ : ∃ (p : Fin 5000) (q : Fin 64), j = ix2 p q := ⟨j 0, j 1, eq_ix2 j⟩
  unfold k1_pay1
  refine (lsm_rows _ p q).trans ?_
  unfold epi
  refine congrArg (fun f => lsmRow f q) (funext fun k => ?_)
  rw [maximumf_apply, addf_apply, shapeCast_self, shapeCast_self, shapeCast_self, broadcastTo_1b_ab_apply, atRow_ix2]
  rfl

/-! ## From blocks to the array -/

variable (V : (c : Dev nD) → (b : Ref sig .tc) → Buf (Elt Ideal) ((c : Thread nD τ).loc b))

theorem zero_offsets' : (![0, 0] : Fin 2 → Nat) = fun _ => 0 := funext fun a => by fin_cases a <;> rfl

/-- The two arrays the region is entered with, and their blocks at point t, at their literal types. -/
abbrev aIn (c : Dev nD) : FVec Ideal S50000x64 .f32 := V c main_v47
abbrev bIn (c : Dev nD) : FVec Ideal S1x64 .f32 := V c main_v48
abbrev aBlk (c : Dev nD) (t : Fin cfg1.N) : FVec Ideal S5000x64 .f32 := iblk1 V c 0 t
abbrev bBlk (c : Dev nD) (t : Fin cfg1.N) : FVec Ideal S1x64 .f32 := iblk1 V c 1 t

/-- The block indices of the three windows at point t: rows block t for the features and the result, the one block of
    the bias row. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `epi` of the arrays the region is entered with. -/
theorem flushed_epi (c : Dev nD) (t : Fin cfg1.N) :
    (dat1 V c).flushed 2 t = ((cfg1.win 2).blk t).view.read (Elt Ideal)
      (epi (n := 50000) (aIn V c) (fun k => bIn V c (ix2 (0 : Fin 1) k))) := by
  show (cfg1.win 2).cut (grid1.coords t) ((dat1 V c).after 2 t) = _
  rw [after1_2]
  unfold out1_2
  rw [View.canon_unit_zero zero_offsets']
  simp only [View.ld_unit_zero (S := S5000x64) zero_offsets', View.ld_unit_zero (S := S1x64) zero_offsets']
  rw [pay_epi]
  obtain ⟨e0, e1, e2, e3, e4, e5⟩ := blockIdx1 t
  funext j
  show epi (n := 5000) (aBlk V c t) (fun k => bBlk V c t (ix2 (0 : Fin 1) k)) j
    = epi (n := 50000) (aIn V c) (fun k => bIn V c (ix2 (0 : Fin 1) k)) (((cfg1.win 2).blk t).view.emb j)
  unfold epi
  have h0 : ∀ k : Fin 64, ((cfg1.win 0).blk t).view.emb (atRow (n := 5000) j k) = atRow (n := 50000) (((cfg1.win 2).blk t).view.emb j) k := fun k => by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have h1 : ∀ k : Fin 64, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have hcol : colOf (n := 5000) j = colOf (n := 50000) (((cfg1.win 2).blk t).view.emb j) := by
    apply Fin.ext
    show (j 1).val = win1_2.index t (1 : Fin 2) * 64 + 1 * (j 1).val
    omega
  have hf : (fun k : Fin 64 => max (aBlk V c t (atRow (n := 5000) j k) + bBlk V c t (ix2 (0 : Fin 1) k)) (Ideal.ofBits .f32 0x00000000#32))
      = fun k : Fin 64 => max (aIn V c (atRow (n := 50000) (((cfg1.win 2).blk t).view.emb j) k) + bIn V c (ix2 (0 : Fin 1) k)) (Ideal.ofBits .f32 0x00000000#32) :=
    funext fun k => by
      show max (aIn V c (((cfg1.win 0).blk t).view.emb (atRow (n := 5000) j k)) + bIn V c (((cfg1.win 1).blk t).view.emb (ix2 (0 : Fin 1) k))) _ = _
      rw [h0 k, h1 k]
  rw [hf, hcol]

/-- An index of the result array is in point t's block iff each coordinate is in the block's range on its axis. -/
theorem mem_blk_epi (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Row r lies in the block of point r / 5000: the ten blocks cover the array. -/
theorem cover_epi (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := blockIdx1 t
  refine ⟨t, flush1_2 t, ?_⟩
  rw [mem_blk_epi]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the second region: `epi` of the features and the bias row as the region finds them. -/
theorem final_epi (c : Dev nD) :
    (dat1 V c).arrAt 2 cfg1.N = epi (n := 50000) (aIn V c) (fun k => bIn V c (ix2 (0 : Fin 1) k)) :=
  (dat1 V c).arrAt_eq_of_cover 2 (epi (n := 50000) (aIn V c) (fun k => bIn V c (ix2 (0 : Fin 1) k)))
    (fun t _ => flushed_epi V c t) cover_epi

end Cert.GcnKernel

end
-- ==== Proof.RefValue.lean ====
/- The reference's closing operations read at an index, at the ideal values.

   After the aggregated features A (the scatter-add's result) the reference adds the bias to every row, clamps below at
   zero, and applies jax's log-softmax along each row: the row maximum M (taken once more against minus infinity, which
   changes nothing), the shifted row, its exponentials summed from zero, the logarithm, a second subtraction. Index by
   index that is `epi A bias`: entry (r, c) is (u r c - M r) - log (sum over k of exp (u r k - M r)) with
   u r c = max (A r c + bias c) 0.

   The reference's product of x and w, a host matrix product, is the plain sum over the contracted index: `dense x w`.
   The aggregated features stay one unopened term throughout. -/
import proofs.«167426_j22247930594050_1_alg».proof.Proof.RefRead
import proofs.«167426_j22247930594050_1_alg».proof.Proof.Spec
import proofs.«167426_j22247930594050_1_alg».proof.Proof.LibRowOps
import Idealize.ShloMosaic.Lib.ValueIdx
import Idealize.ShloMosaic.PureOps.Ideal.Laws

noncomputable section

namespace Cert.GcnRef

open Cert.ReferenceIdeal Cert.ReferenceIdeal.Gen Cert.ReferenceIdeal.ReadP Cert.GcnSpec Cert.LibRowOps
open Idealize.ShloMosaic Idealize.ShloMosaic.TcCoe Idealize.ShloMosaic.ValueIdx Idealize.SL.Sem Idealize.ShloMosaic.StableHlo

/-! ## Index arithmetic: the composed index maps of the broadcasts are rows and columns -/

theorem atRow_atRow (i : S50000x64.Idx) (k k' : Fin 64) : atRow (n := 50000) (atRow (n := 50000) i k') k = atRow (n := 50000) i k := by
  funext a; match a with
  | ⟨0, _⟩ => rfl
  | ⟨1, _⟩ => rfl

theorem atRow_colOf (i : S50000x64.Idx) : atRow (n := 50000) i (colOf (n := 50000) i) = i := by
  funext a; match a with
  | ⟨0, _⟩ => rfl
  | ⟨1, _⟩ => rfl

theorem colOf_atRow (i : S50000x64.Idx) (k : Fin 64) : colOf (n := 50000) (atRow (n := 50000) i k) = k := rfl

theorem bias_idx (i : S50000x64.Idx) : idx_main_v48 (idx_main_v49 i) = ix1 (colOf (n := 50000) i) := by
  funext a; match a with
  | ⟨0, _⟩ => rfl

/-- The row of `i`, as a number below 50000. -/
abbrev rowOf (i : S50000x64.Idx) : Fin 50000 := ⟨(i 0).val, (i 0).isLt⟩

theorem row_idx (i : S50000x64.Idx) : idx_main_call2_v3 (idx_main_call2_v4 i) = ix1 (rowOf i) := by
  funext a; match a with
  | ⟨0, _⟩ => rfl

theorem row_ix2 (i : S50000x64.Idx) (k : Fin 64) : ix2 (rowOf i) k = atRow (n := 50000) i k := by
  funext a; match a with
  | ⟨0, _⟩ => rfl
  | ⟨1, _⟩ => rfl

theorem rowmax_idx (i : S50000x64.Idx) (k : Fin 64) :
    idx_main_call2_v7 (idx_main_call2_v3 (idx_main_call2_v4 i)) k = atRow (n := 50000) i k := by
  funext a; match a with
  | ⟨0, _⟩ => rfl
  | ⟨1, _⟩ => rfl

theorem rowsum_idx (i : S50000x64.Idx) (k : Fin 64) :
    idx_main_call2_v7 (idx_main_call2_v8 (idx_main_call2_v10 i)) k = atRow (n := 50000) i k := by
  funext a; match a with
  | ⟨0, _⟩ => rfl
  | ⟨1, _⟩ => rfl

/-! ## The stages -/

/-- The biased features clamped below at zero. -/
theorem relu_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (i : S50000x64.Idx) :
    val_main_v51 (F := Ideal) x0 x1 x2 x3 i
      = max (val_main_v47 (F := Ideal) x0 x1 x2 i + x3 (ix1 (colOf (n := 50000) i))) (Ideal.ofBits .f32 0x00000000#32) := by
  rw [val_main_v51_apply, val_main_v50_apply, val_main_v49_apply, val_main_v48_apply, val_main_call1_v0_apply,
    val_main_call1_cst_apply, bias_idx]
  rfl

/-- The row maximum: the host's reduction with a maximum body along the rows, from minus infinity, and one more maximum
    against minus infinity. -/
theorem rowmax_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (p : Fin 50000) :
    val_main_call2_v2 (F := Ideal) x0 x1 x2 x3 (ix1 p)
      = rowMax (fun k => val_main_v51 (F := Ideal) x0 x1 x2 x3 (ix2 p k)) := by
  rw [val_main_call2_v2_apply, val_main_call2_v1_apply, val_main_call2_cst_0_apply]
  unfold val_main_call2_v0
  generalize val_main_v51 (F := Ideal) x0 x1 x2 x3 = y
  rw [Ideal.maximumf_def, Ideal.ofBits_def, max_negInf]
  exact (hostRowMax_apply (a := 50000) (b := 64) y (val_main_call2_cst (F := Ideal)) reducesTo_S50000x64_S50000_d1 (by decide) h_S_ p).trans rfl

/-- The shifted row. -/
theorem shifted_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (i : S50000x64.Idx) :
    val_main_call2_v5 (F := Ideal) x0 x1 x2 x3 i
      = val_main_v51 (F := Ideal) x0 x1 x2 x3 i - rowMax (fun k => val_main_v51 (F := Ideal) x0 x1 x2 x3 (atRow (n := 50000) i k)) := by
  rw [val_main_call2_v5_apply, val_main_call2_v4_apply, val_main_call2_v3_apply, row_idx, rowmax_apply]
  have e : (fun k : Fin 64 => val_main_v51 (F := Ideal) x0 x1 x2 x3 (ix2 (rowOf i) k))
      = fun k : Fin 64 => val_main_v51 (F := Ideal) x0 x1 x2 x3 (atRow (n := 50000) i k) :=
    funext fun k => congrArg (val_main_v51 (F := Ideal) x0 x1 x2 x3) (row_ix2 i k)
  rw [e]
  rfl

/-- The logarithm of the row's summed exponentials. -/
theorem logsum_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (i : S50000x64.Idx) :
    val_main_call2_v10 (F := Ideal) x0 x1 x2 x3 i
      = Ideal.log (∑ k : Fin 64, Ideal.exp (val_main_call2_v5 (F := Ideal) x0 x1 x2 x3 (atRow (n := 50000) i k))) := by
  rw [val_main_call2_v10_apply, val_main_call2_v9_apply, val_main_call2_v8_apply, val_main_call2_v7_apply,
    val_main_call2_cst_1_apply]
  rw [Ideal.hostUnary_log_def, Ideal.ofBits_def, Ideal.ofBits_zero_f32, zero_add]
  refine congrArg Ideal.log (Finset.sum_congr rfl fun k _ => ?_)
  rw [val_main_call2_v6_apply, Ideal.hostUnary_exp_def, rowsum_idx i k]

/-- The reference's result at an index: the log-softmax of the row of clamped, biased features. -/
theorem lsm_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (i : S50000x64.Idx) :
    val_main_v52 (F := Ideal) x0 x1 x2 x3 i
      = lsmRow (fun k => val_main_v51 (F := Ideal) x0 x1 x2 x3 (atRow (n := 50000) i k)) (colOf (n := 50000) i) := by
  have hmax : ∀ k : Fin 64, rowMax (fun k' => val_main_v51 (F := Ideal) x0 x1 x2 x3 (atRow (n := 50000) (atRow (n := 50000) i k) k'))
      = rowMax (fun k' => val_main_v51 (F := Ideal) x0 x1 x2 x3 (atRow (n := 50000) i k')) := fun k =>
    congrArg rowMax (funext fun k' => congrArg (val_main_v51 (F := Ideal) x0 x1 x2 x3) (atRow_atRow i k' k))
  have hsh : ∀ k : Fin 64, val_main_call2_v5 (F := Ideal) x0 x1 x2 x3 (atRow (n := 50000) i k)
      = val_main_v51 (F := Ideal) x0 x1 x2 x3 (atRow (n := 50000) i k) - rowMax (fun k' => val_main_v51 (F := Ideal) x0 x1 x2 x3 (atRow (n := 50000) i k')) := fun k => by
    rw [shifted_apply, hmax]
  have hs : (∑ k : Fin 64, Ideal.exp (val_main_call2_v5 (F := Ideal) x0 x1 x2 x3 (atRow (n := 50000) i k)))
      = ∑ k : Fin 64, Ideal.exp (val_main_v51 (F := Ideal) x0 x1 x2 x3 (atRow (n := 50000) i k) - rowMax (fun k' => val_main_v51 (F := Ideal) x0 x1 x2 x3 (atRow (n := 50000) i k'))) :=
    Finset.sum_congr rfl fun k _ => congrArg Ideal.exp (hsh k)
  rw [val_main_v52_apply, logsum_apply, shifted_apply, hs]
  show (val_main_v51 (F := Ideal) x0 x1 x2 x3 i - _) - _ = (val_main_v51 (F := Ideal) x0 x1 x2 x3 (atRow (n := 50000) i (colOf (n := 50000) i)) - _) - _
  rw [atRow_colOf]

/-- The reference's result is `epi` of its aggregated features and the bias. -/
theorem result_apply (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) :
    val_main_v52 (F := Ideal) x0 x1 x2 x3 = epi (n := 50000) (val_main_v47 (F := Ideal) x0 x1 x2) (fun k => x3 (ix1 k)) := by
  funext i
  have hrow : (fun k : Fin 64 => val_main_v51 (F := Ideal) x0 x1 x2 x3 (atRow (n := 50000) i k))
      = fun k : Fin 64 => max (val_main_v47 (F := Ideal) x0 x1 x2 (atRow (n := 50000) i k) + x3 (ix1 k)) (Ideal.ofBits .f32 0x00000000#32) :=
    funext fun k => by rw [relu_apply, colOf_atRow]
  rw [lsm_apply, hrow]
  rfl

/-! ## The shared host chain, unopened -/

/-- What both programs do between the product and the closing operations, as ONE function of the edge list and of the
    product `h`: gather the rows of `h` at the edges' sources, scale each by its edge's normalisation weight, and add
    them up at the edges' targets (the weights, sources and targets are themselves functions of the edge list alone).
    It is stated over the reference's stages and is never opened: the two programs apply it to equal products. -/
def agg {F : FTy → Type} [FloatOps F] (x1 : (⟨S2x800000, .i32⟩ : BufTy).Contents (Elt F)) (h : (⟨S50000x64, .f32⟩ : BufTy).Contents (Elt F)) :
    (⟨S50000x64, .f32⟩ : BufTy).Contents (Elt F) :=
  Host.scatterAdd scatter_S50000x64_S850000x1_S850000x64_1_0_0_1 (val_main_v45 (F := F)) (val_main_v46 (F := F) x1)
    (mulf (val_main_v43 (F := F) x1) (Host.gather gather_S50000x64_S850000x1_S850000x64_1_0_n_n_0_1_164 h (val_main_v41 (F := F) x1)))

/-- The reference's aggregated features are that function of its product. -/
theorem agg_ref {F : FTy → Type} [FloatOps F] (x0 : (⟨S50000x64, .f32⟩ : BufTy).Contents (Elt F)) (x1 : (⟨S2x800000, .i32⟩ : BufTy).Contents (Elt F))
    (x2 : (⟨S64x64, .f32⟩ : BufTy).Contents (Elt F)) :
    val_main_v47 (F := F) x0 x1 x2 = agg x1 (val_main_v34 (F := F) x0 x2) := by
  unfold val_main_v47 val_main_v44 val_main_v42 agg
  rfl

/-- The reference's matrix product is the plain sum over the contracted index. -/
theorem product_apply (x0 : (⟨S50000x64, .f32⟩ : BufTy).Contents (Elt Ideal)) (x2 : (⟨S64x64, .f32⟩ : BufTy).Contents (Elt Ideal)) :
    val_main_v34 (F := Ideal) x0 x2 = dense (n := 50000) x0 x2 := by
  funext i
  rw [val_main_v34_apply]
  unfold dense
  refine Finset.sum_congr rfl fun k _ => ?_
  have el : lidx_main_v34 i k = atRow (n := 50000) i k := funext fun a => by
    match a with
    | ⟨0, _⟩ => rfl
    | ⟨1, _⟩ => rfl
  have er : ridx_main_v34 i k = atCol (n := 50000) i k := funext fun a => by
    match a with
    | ⟨0, _⟩ => rfl
    | ⟨1, _⟩ => rfl
  rw [el, er]

/-- The reference's result, whole: `epi` of the shared chain applied to `dense x w`, and the bias. -/
theorem reference_value (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) :
    val_main_v52 (F := Ideal) x0 x1 x2 x3 = epi (n := 50000) (agg x1 (dense (n := 50000) x0 x2)) (fun k => x3 (ix1 k)) := by
  rw [result_apply, agg_ref, product_apply]

end Cert.GcnRef

end
-- ==== Proof.KernelValue.lean ====
/- The idealized kernel's result array, as one function of its four arguments.

   @main runs host operations, the product region, more host operations, and the epilogue region. Reading the buffer
   contents boundary by boundary:
   * when the product region is entered, x and w are still the arguments, and the edges' sources, targets and
     normalisation weights have been computed from the edge list by the same host operations the reference applies
     (`src_at_entry`, `dst_at_entry`, `norm_at_entry`: equal to the reference's stages of those names);
   * the region leaves `dense x w` in its output array and every other buffer as it was;
   * the host operations between the regions gather, scale and scatter-add the product: the shared chain `agg` of the edge
     list and `dense x w`; and they reshape the bias to one row;
   * the epilogue region leaves `epi` of those two in the result array.
   So the result is `epi (agg edges (dense x w)) bias`, the function the reference computes. -/
import proofs.«167426_j22247930594050_1_alg».proof.Proof.KernelMatmul
import proofs.«167426_j22247930594050_1_alg».proof.Proof.KernelEpilogue
import proofs.«167426_j22247930594050_1_alg».proof.Proof.RefValue
import Idealize.ShloMosaic.Lib.StableHlo.Run
import Idealize.ShloMosaic.Lib.ValueLayout

set_option maxRecDepth 16384

noncomputable section

namespace Cert.GcnBridge

open Cert.KernelIdeal Cert.KernelIdeal.Gen Cert.GcnSpec Cert.GcnKernel
open Idealize.ShloMosaic Idealize.ShloMosaic.TcCoe Idealize.ShloMosaic.ValueIdx Idealize.ShloMosaic.StableHlo Idealize.SL.Sem

/-- Reads what is left of a fold of host operations after the one-pass reading: the results standing inside the operand
    lists of concatenations. -/
local macro "finish_results" : tactic =>
  `(tactic| repeat (first | rw [nullary_result] | rw [unary_result] | rw [binary_result] | rw [ternary_result] | rw [quaternary_result] | rw [reshape_result] | (rw [nullary_result_ne]; rotate_left; decide) | (rw [unary_result_ne]; rotate_left; decide) | (rw [binary_result_ne]; rotate_left; decide) | (rw [ternary_result_ne]; rotate_left; decide) | (rw [quaternary_result_ne]; rotate_left; decide) | (rw [reshape_result_ne]; rotate_left; decide)))

section Host

variable {F : FTy → Type} [FloatOps F]
variable (m : (ℓ : Loc nD τ sig) → Buf (Elt F) ℓ) (ρ : Dev nD → PrngReg)

/-! ## When the product region is entered -/

theorem x_at_entry (c : Dev nD) : W3 m ρ c (Proc.devRef .tc main_arg0) = m ((c : Thread nD τ).loc main_arg0) := by
  dsimp only [W3, W2, W1, W0, hostOps0_2, hostOps0_1, hostOps0]
  after_results

theorem w_at_entry (c : Dev nD) : W3 m ρ c (Proc.devRef .tc main_arg2) = m ((c : Thread nD τ).loc main_arg2) := by
  dsimp only [W3, W2, W1, W0, hostOps0_2, hostOps0_1, hostOps0]
  after_results

theorem b_at_entry (c : Dev nD) : W3 m ρ c (Proc.devRef .tc main_arg3) = m ((c : Thread nD τ).loc main_arg3) := by
  dsimp only [W3, W2, W1, W0, hostOps0_2, hostOps0_1, hostOps0]
  after_results

set_option maxHeartbeats 4000000 in
/-- The edges' sources (the self loops appended). -/
theorem src_at_entry (c : Dev nD) :
    W3 m ρ c (Proc.devRef .tc main_v5) = Cert.ReferenceIdeal.ReadP.val_main_v5 (F := F) (m ((c : Thread nD τ).loc main_arg1)) := by
  dsimp only [W3, W2, W1, W0, hostOps0_2, hostOps0_1, hostOps0]
  after_results_simp
  finish_results
  rfl

set_option maxHeartbeats 4000000 in
/-- The edges' targets (the self loops appended). -/
theorem dst_at_entry (c : Dev nD) :
    W3 m ρ c (Proc.devRef .tc main_v6) = Cert.ReferenceIdeal.ReadP.val_main_v6 (F := F) (m ((c : Thread nD τ).loc main_arg1)) := by
  dsimp only [W3, W2, W1, W0, hostOps0_2, hostOps0_1, hostOps0]
  after_results_simp
  finish_results
  rfl

set_option maxHeartbeats 8000000 in
/-- The edges' normalisation weights. -/
theorem norm_at_entry (c : Dev nD) :
    W3 m ρ c (Proc.devRef .tc main_v33) = Cert.ReferenceIdeal.ReadP.val_main_v33 (F := F) (m ((c : Thread nD τ).loc main_arg1)) := by
  dsimp only [W3, W2, W1, W0, hostOps0_2, hostOps0_1, hostOps0]
  after_results_simp
  finish_results
  try simp only [TRef.ofBuf, TRef.toBuf, cast_eq]
  rfl

/-! ## Between the regions -/

set_option maxHeartbeats 4000000 in
/-- The aggregated features the epilogue region is entered with: the shared chain of the edge list and of whatever the
    product region left in its output array. -/
theorem feat_at_epilogue (c : Dev nD) (h : Buf (Elt F) ((c : Thread nD τ).loc main_v34))
    (hh : W4 m ρ c (Proc.devRef .tc main_v34) = h) :
    V5 m ρ c main_v47 = Cert.GcnRef.agg (F := F) (m ((c : Thread nD τ).loc main_arg1)) h := by
  dsimp only [V5, W5, hostOps1]
  after_results_simp
  rw [hh, (W4_of_ne m ρ c main_v5 (by decide)).trans (src_at_entry m ρ c),
    (W4_of_ne m ρ c main_v6 (by decide)).trans (dst_at_entry m ρ c),
    (W4_of_ne m ρ c main_v33 (by decide)).trans (norm_at_entry m ρ c)]
  rfl

/-- The bias row the epilogue region is entered with: the bias argument, reshaped to one row. -/
theorem bias_at_epilogue (c : Dev nD) :
    V5 m ρ c main_v48 = shapeCast S1x64 (m ((c : Thread nD τ).loc main_arg3)) shapeCasts_S64_S1x64 := by
  dsimp only [V5, W5, hostOps1]
  after_results_simp
  rw [(W4_of_ne m ρ c main_arg3 (by decide)).trans (b_at_entry m ρ c)]
  rfl

end Host

/-! ## The result -/

section Value

variable (m : (ℓ : Loc nD τ sig) → Buf (Elt Ideal) ℓ) (ρ : Dev nD → PrngReg)

/-- The kernel's result as a function of its arguments: `epi (agg edges (dense x w)) bias`. -/
def result (c : Dev nD) : Buf (Elt Ideal) ((c : Thread nD τ).loc main_v49) :=
  epi (n := 50000)
    (Cert.GcnRef.agg (F := Ideal) (m ((c : Thread nD τ).loc main_arg1))
      (dense (n := 50000) (m ((c : Thread nD τ).loc main_arg0)) (m ((c : Thread nD τ).loc main_arg2))))
    (fun k => (m ((c : Thread nD τ).loc main_arg3) : S64.Idx → EReal) (ix1 k))

/-- The product array when the first region is left. -/
theorem product_at_exit (c : Dev nD) :
    W4 m ρ c (Proc.devRef .tc main_v34)
      = dense (n := 50000) (m ((c : Thread nD τ).loc main_arg0)) (m ((c : Thread nD τ).loc main_arg2)) := by
  refine (W4_arr m ρ c 2).trans ((final_mm (V3 m ρ) c).trans ?_)
  show dense (n := 50000) (W3 m ρ c (Proc.devRef .tc main_arg0)) (W3 m ρ c (Proc.devRef .tc main_arg2)) = _
  rw [x_at_entry, w_at_entry]

/-- The result array after the last region is `result`. -/
theorem kernel_result (c : Dev nD) : W6 m ρ c (Proc.devRef .tc main_v49) = result m c := by
  refine (W6_arr m ρ c 2).trans ((final_epi (V5 m ρ) c).trans ?_)
  show epi (n := 50000) (V5 m ρ c main_v47) (fun k => (V5 m ρ c main_v48 : S1x64.Idx → EReal) (ix2 (0 : Fin 1) k)) = _
  rw [feat_at_epilogue m ρ c _ (product_at_exit m ρ c), bias_at_epilogue]
  unfold result
  refine congrArg (epi (n := 50000) _) (funext fun k => ?_)
  exact shapeCast_a_1a_apply _ shapeCasts_S64_S1x64 (0 : Fin 1) k

end Value

end Cert.GcnBridge

end
-- ==== Proof.RefStages.lean ====
/- The reference's run, read in three stretches.

   The reference's @main is a straight line of 84 host operations. Every weakly fair execution ends with each buffer at
   the fold of the operations' results over the launch contents; what is proved here is what that fold leaves in the
   result buffer: the reference's last stage, as a function of the four arguments.

   The line is cut after the edges' normalisation weights (46 operations: sources, targets, degrees, weights), after the
   aggregated features (17 more: the product, the gathers, the scatter-add) and runs to the end (21: bias, clamp,
   log-softmax). Each stretch is read over ANY contents it may start from: the first gives the sources, targets and
   weights as the stages of those names of the edge list and leaves x, w and the bias alone; the second gives the
   aggregated features from those; the third the result from the aggregated features and the bias (it is read with its two row reductions left as
   function variables, which are instantiated last). Joined, the fold at the result buffer is the last stage. The operation lists are the generated list's three consecutive pieces. -/
import proofs.«167426_j22247930594050_1_alg».proof.Proof.RefRead
import Idealize.ShloMosaic.Lib.StableHlo.Run
import Idealize.ShloMosaic.Lib.Pipeline.Frame

noncomputable section

namespace Cert.GcnRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Reads what is left of a fold of host operations after the one-pass reading: the results standing inside the operand
    lists of concatenations. -/
local macro "finish_results" : tactic =>
  `(tactic| repeat (first | rw [nullary_result] | rw [unary_result] | rw [binary_result] | rw [ternary_result] | rw [quaternary_result] | rw [reshape_result] | (rw [nullary_result_ne]; rotate_left; decide) | (rw [unary_result_ne]; rotate_left; decide) | (rw [binary_result_ne]; rotate_left; decide) | (rw [ternary_result_ne]; rotate_left; decide) | (rw [quaternary_result_ne]; rotate_left; decide) | (rw [reshape_result_ne]; rotate_left; decide)))

/-- Operations 1 … 46: the edges' sources, targets and normalisation weights. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S800000 ![] bcast_S_S800000 : (⟨S_, .f32⟩ : BufTy).Contents (Elt F) → (⟨S800000, .f32⟩ : BufTy).Contents (Elt F)),
    nullary main_cst_0 (constant S_ .f32 0x40000000#32),
    unary main_cst_0 main_v8 (broadcastInDim S50000 ![] bcast_S_S50000 : (⟨S_, .f32⟩ : BufTy).Contents (Elt F) → (⟨S50000, .f32⟩ : BufTy).Contents (Elt F)),
    binary main_v7 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_v6 main_v11 (broadcastInDim S850000x1 ![0] bcast_S850000_S850000x1_0 : (⟨S850000, .i32⟩ : BufTy).Contents (Elt F) → (⟨S850000x1, .i32⟩ : BufTy).Contents (Elt F)),
    ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_2 (constant S_ .f32 0x00000000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (cmpf (F := F) .ogt : (⟨S50000, .f32⟩ : BufTy).Contents (Elt F) → (⟨S50000, .f32⟩ : BufTy).Contents (Elt F) → (⟨S50000, .i1⟩ : BufTy).Contents (Elt F)),
    nullary main_cst_3 (constant S_ .f32 0xBF000000#32),
    unary main_cst_3 main_v15 (broadcastInDim S50000 ![] bcast_S_S50000 : (⟨S_, .f32⟩ : BufTy).Contents (Elt F) → (⟨S50000, .f32⟩ : BufTy).Contents (Elt F)),
    binary main_v12 main_v15 main_v16 (Host.powf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v16) (TRef.of (T := ⟨S50000, .f32⟩) main_call0_v1) (TRef.of (T := ⟨S50000, .f32⟩) main_v17) select,
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v5 main_v18 main_v19 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v20 (broadcastInDim S850000 ![] bcast_S_S850000 : (⟨S_, .i32⟩ : BufTy).Contents (Elt F) → (⟨S850000, .i32⟩ : BufTy).Contents (Elt F)),
    binary main_v5 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v5 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v9 main_v25 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v17 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)) ]

/-- Operations 47 … 63: the product, the gathers and the scatter-add. -/
abbrev opsB : List (HloOp τ sig (Elt F)) :=
  [ binary main_arg0 main_arg2 main_v34 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v35 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v36 (broadcastInDim S850000 ![] bcast_S_S850000 : (⟨S_, .i32⟩ : BufTy).Contents (Elt F) → (⟨S850000, .i32⟩ : BufTy).Contents (Elt F)),
    binary main_v5 main_v36 main_v37 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v38 (broadcastInDim S850000 ![] bcast_S_S850000 : (⟨S_, .i32⟩ : BufTy).Contents (Elt F) → (⟨S850000, .i32⟩ : BufTy).Contents (Elt F)),
    binary main_v5 main_v38 main_v39 (addi : (⟨S850000, .i32⟩ : BufTy).Contents (Elt F) → (⟨S850000, .i32⟩ : BufTy).Contents (Elt F) → (⟨S850000, .i32⟩ : BufTy).Contents (Elt F)),
    ternary main_v37 main_v39 main_v5 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v40 main_v41 (broadcastInDim S850000x1 ![0] bcast_S850000_S850000x1_0 : (⟨S850000, .i32⟩ : BufTy).Contents (Elt F) → (⟨S850000x1, .i32⟩ : BufTy).Contents (Elt F)),
    binary main_v34 main_v41 main_v42 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v35 main_v43 (broadcastInDim S850000x64 ![0, 1] bcast_S850000x1_S850000x64_0_1 : (⟨S850000x1, .f32⟩ : BufTy).Contents (Elt F) → (⟨S850000x64, .f32⟩ : BufTy).Contents (Elt F)),
    binary main_v43 main_v42 main_v44 (mulf : (⟨S850000x64, .f32⟩ : BufTy).Contents (Elt F) → (⟨S850000x64, .f32⟩ : BufTy).Contents (Elt F) → (⟨S850000x64, .f32⟩ : BufTy).Contents (Elt F)),
    nullary main_cst_10 (constant S_ .f32 0x00000000#32),
    unary main_cst_10 main_v45 (broadcastInDim S50000x64 ![] bcast_S_S50000x64 : (⟨S_, .f32⟩ : BufTy).Contents (Elt F) → (⟨S50000x64, .f32⟩ : BufTy).Contents (Elt F)),
    unary main_v6 main_v46 (broadcastInDim S850000x1 ![0] bcast_S850000_S850000x1_0 : (⟨S850000, .i32⟩ : BufTy).Contents (Elt F) → (⟨S850000x1, .i32⟩ : BufTy).Contents (Elt F)),
    ternary main_v45 main_v46 main_v44 main_v47 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- Operations 64 … 84: the bias, the clamp and the log-softmax. -/
abbrev opsC : List (HloOp τ sig (Elt F)) :=
  [ unary main_arg3 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v47 main_v49 main_v50 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v50) (TRef.of (T := ⟨S50000x64, .f32⟩) main_call1_v0) (TRef.of (T := ⟨S50000x64, .f32⟩) main_v51) maximumf,
    TRef.nullary (TRef.of (T := ⟨S_, .f32⟩) main_call2_cst) (constant S_ .f32 0xFF800000#32),
    TRef.binary (TRef.of (T := ⟨S50000x64, .f32⟩) main_v51) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v51) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v52) subf ]

set_option maxRecDepth 8192 in
theorem ops_split : (ops : List (HloOp τ sig (Elt F))) = opsA ++ (opsB ++ opsC) := rfl

variable (V : Valuation τ sig (Elt F))

/-! ## The first stretch -/

theorem x_afterA : after opsA V (Proc.devRef .tc main_arg0) = V (Proc.devRef .tc main_arg0) := by
  dsimp only [opsA]; after_results
theorem w_afterA : after opsA V (Proc.devRef .tc main_arg2) = V (Proc.devRef .tc main_arg2) := by
  dsimp only [opsA]; after_results
theorem b_afterA : after opsA V (Proc.devRef .tc main_arg3) = V (Proc.devRef .tc main_arg3) := by
  dsimp only [opsA]; after_results

set_option maxHeartbeats 4000000 in
theorem src_afterA : after opsA V (Proc.devRef .tc main_v5) = val_main_v5 (F := F) (V (Proc.devRef .tc main_arg1)) := by
  dsimp only [opsA]
  after_results_simp
  finish_results
  rfl

set_option maxHeartbeats 4000000 in
theorem dst_afterA : after opsA V (Proc.devRef .tc main_v6) = val_main_v6 (F := F) (V (Proc.devRef .tc main_arg1)) := by
  dsimp only [opsA]
  after_results_simp
  finish_results
  rfl

set_option maxHeartbeats 8000000 in
theorem norm_afterA : after opsA V (Proc.devRef .tc main_v33) = val_main_v33 (F := F) (V (Proc.devRef .tc main_arg1)) := by
  dsimp only [opsA]
  after_results_simp
  finish_results
  try simp only [TRef.ofBuf, TRef.toBuf, cast_eq]
  rfl

/-! ## The second stretch -/

theorem b_afterB : after opsB V (Proc.devRef .tc main_arg3) = V (Proc.devRef .tc main_arg3) := by
  dsimp only [opsB]; after_results

set_option maxHeartbeats 4000000 in
theorem feat_afterB (x0 : (⟨S50000x64, .f32⟩ : BufTy).Contents (Elt F)) (x1 : (⟨S2x800000, .i32⟩ : BufTy).Contents (Elt F)) (x2 : (⟨S64x64, .f32⟩ : BufTy).Contents (Elt F))
    (h0 : V (Proc.devRef .tc main_arg0) = x0) (h2 : V (Proc.devRef .tc main_arg2) = x2)
    (h5 : V (Proc.devRef .tc main_v5) = val_main_v5 (F := F) x1) (h6 : V (Proc.devRef .tc main_v6) = val_main_v6 (F := F) x1)
    (h33 : V (Proc.devRef .tc main_v33) = val_main_v33 (F := F) x1) :
    after opsB V (Proc.devRef .tc main_v47) = val_main_v47 (F := F) x0 x1 x2 := by
  dsimp only [opsB]
  after_results_simp
  rw [h0, h2, h5, h6, h33]
  rfl

/-! ## The third stretch -/

/-- Operations 64 … 84 with the two row reductions (the maximum, the sum) left as functions `g1`, `g2` of the reduced
    array and the initial value: the stretch is read for any two such functions, and the reference's own are put in last. -/
abbrev opsCg (g1 g2 : (⟨S50000x64, .f32⟩ : BufTy).Contents (Elt F) → (⟨S_, .f32⟩ : BufTy).Contents (Elt F) → (⟨S50000, .f32⟩ : BufTy).Contents (Elt F)) : List (HloOp τ sig (Elt F)) :=
  [ unary main_arg3 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v47 main_v49 main_v50 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v50) (TRef.of (T := ⟨S50000x64, .f32⟩) main_call1_v0) (TRef.of (T := ⟨S50000x64, .f32⟩) main_v51) maximumf,
    TRef.nullary (TRef.of (T := ⟨S_, .f32⟩) main_call2_cst) (constant S_ .f32 0xFF800000#32),
    TRef.binary (TRef.of (T := ⟨S50000x64, .f32⟩) main_v51) (TRef.of (T := ⟨S_, .f32⟩) main_call2_cst) (TRef.of (T := ⟨S50000, .f32⟩) main_call2_v0) g1,
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v51) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) g2,
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v52) subf ]

/-- What operations 64 … 84 compute from the aggregated features `A` and the bias `b`, the two row reductions being
    `g1` and `g2`: bias, clamp at zero, then the shifted row minus the logarithm of its summed exponentials. -/
def tail (g1 g2 : (⟨S50000x64, .f32⟩ : BufTy).Contents (Elt F) → (⟨S_, .f32⟩ : BufTy).Contents (Elt F) → (⟨S50000, .f32⟩ : BufTy).Contents (Elt F)) (A : (⟨S50000x64, .f32⟩ : BufTy).Contents (Elt F)) (b : (⟨S64, .f32⟩ : BufTy).Contents (Elt F)) : (⟨S50000x64, .f32⟩ : BufTy).Contents (Elt F) :=
  subf (subf (maximumf (addf A (broadcastInDim S50000x64 ![0, 1] bcast_S1x64_S50000x64_0_1 (broadcastInDim S1x64 ![1] bcast_S64_S1x64_1 b))) (broadcastInDim S50000x64 ![] bcast_S_S50000x64 (constant S_ .f32 0x00000000#32))) (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (g1 (maximumf (addf A (broadcastInDim S50000x64 ![0, 1] bcast_S1x64_S50000x64_0_1 (broadcastInDim S1x64 ![1] bcast_S64_S1x64_1 b))) (broadcastInDim S50000x64 ![] bcast_S_S50000x64 (constant S_ .f32 0x00000000#32))) (constant S_ .f32 0xFF800000#32)))))) (broadcastInDim S50000x64 ![0, 1] bcast_S50000x1_S50000x64_0_1 (Host.log (broadcastInDim S50000x1 ![0] bcast_S50000_S50000x1_0 (g2 (Host.exp (subf (maximumf (addf A (broadcastInDim S50000x64 ![0, 1] bcast_S1x64_S50000x64_0_1 (broadcastInDim S1x64 ![1] bcast_S64_S1x64_1 b))) (broadcastInDim S50000x64 ![] bcast_S_S50000x64 (constant S_ .f32 0x00000000#32))) (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (g1 (maximumf (addf A (broadcastInDim S50000x64 ![0, 1] bcast_S1x64_S50000x64_0_1 (broadcastInDim S1x64 ![1] bcast_S64_S1x64_1 b))) (broadcastInDim S50000x64 ![] bcast_S_S50000x64 (constant S_ .f32 0x00000000#32))) (constant S_ .f32 0xFF800000#32))))))) (constant S_ .f32 0x00000000#32)))))

set_option maxHeartbeats 4000000 in
theorem tail_afterCg (g1 g2 : (⟨S50000x64, .f32⟩ : BufTy).Contents (Elt F) → (⟨S_, .f32⟩ : BufTy).Contents (Elt F) → (⟨S50000, .f32⟩ : BufTy).Contents (Elt F)) (A : (⟨S50000x64, .f32⟩ : BufTy).Contents (Elt F)) (b : (⟨S64, .f32⟩ : BufTy).Contents (Elt F))
    (h47 : V (Proc.devRef .tc main_v47) = A) (h3 : V (Proc.devRef .tc main_arg3) = b) :
    after (opsCg g1 g2) V (Proc.devRef .tc main_v52) = tail g1 g2 A b := by
  dsimp only [opsCg]
  after_results_simp
  rw [h47, h3]
  simp only [TRef.ofBuf, TRef.toBuf, cast_eq]
  rfl

/-- With the reference's own reductions the tail is its last stage. -/
theorem tail_eq (x0 : (⟨S50000x64, .f32⟩ : BufTy).Contents (Elt F)) (x1 : (⟨S2x800000, .i32⟩ : BufTy).Contents (Elt F)) (x2 : (⟨S64x64, .f32⟩ : BufTy).Contents (Elt F)) (x3 : (⟨S64, .f32⟩ : BufTy).Contents (Elt F)) :
    tail (fun x v => Host.reduce FloatOps.maximumf x v reducesTo_S50000x64_S50000_d1 h_S_) (fun x v => Host.reduceAdd x v reducesTo_S50000x64_S50000_d1 h_S_) (val_main_v47 (F := F) x0 x1 x2) x3 = val_main_v52 (F := F) x0 x1 x2 x3 := by
  unfold tail val_main_v52 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst val_main_v51 val_main_call1_v0 val_main_call1_cst
    val_main_v50 val_main_v49 val_main_v48
  rfl

theorem opsC_eq : (opsC : List (HloOp τ sig (Elt F))) = opsCg (fun x v => Host.reduce FloatOps.maximumf x v reducesTo_S50000x64_S50000_d1 h_S_) (fun x v => Host.reduceAdd x v reducesTo_S50000x64_S50000_d1 h_S_) := rfl

theorem result_afterC (x0 : (⟨S50000x64, .f32⟩ : BufTy).Contents (Elt F)) (x1 : (⟨S2x800000, .i32⟩ : BufTy).Contents (Elt F)) (x2 : (⟨S64x64, .f32⟩ : BufTy).Contents (Elt F)) (x3 : (⟨S64, .f32⟩ : BufTy).Contents (Elt F))
    (h47 : V (Proc.devRef .tc main_v47) = val_main_v47 (F := F) x0 x1 x2) (h3 : V (Proc.devRef .tc main_arg3) = x3) :
    after opsC V (Proc.devRef .tc main_v52) = val_main_v52 (F := F) x0 x1 x2 x3 := by
  rw [opsC_eq, tail_afterCg V _ _ _ _ h47 h3, tail_eq]

/-! ## Joined -/

/-- What the whole line leaves in the result buffer: the last stage of the four arguments' contents. -/
theorem fold_result :
    after ops V (Proc.devRef .tc main_v52)
      = val_main_v52 (F := F) (V (Proc.devRef .tc main_arg0)) (V (Proc.devRef .tc main_arg1)) (V (Proc.devRef .tc main_arg2)) (V (Proc.devRef .tc main_arg3)) := by
  rw [ops_split, StableHlo.after_append, StableHlo.after_append]
  exact result_afterC _ _ _ _ _
    (feat_afterB _ _ _ _ (x_afterA V) (w_afterA V) (src_afterA V) (dst_afterA V) (norm_afterA V))
    ((b_afterB _).trans (b_afterA V))

set_option maxRecDepth 8192 in
set_option maxHeartbeats 33600000 in
/-- On every device, from any memory with zero counters: every weakly fair execution of the reference's @main terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = val_main_v52 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v52).trans (fold_result _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.GcnRefRun

end
-- ==== Proof.lean ====
/- A graph-convolution layer with self loops, symmetric normalisation, bias, a clamp at zero and a log-softmax along
   the features: the kernel against its plain jax reference, over the extended reals.

   Both programs compute, from the features x ([50000, 64]), the edge list ([2, 800000]), the weights w ([64, 64]) and
   the bias ([64]):   epi (agg edges (dense x w)) bias.
   * `dense x w` is the matrix product. The kernel computes it ten blocks of 5000 rows at a time on the matrix unit, after
     a change of float format; at the ideal values that change is the identity and a sum of extended reals does not depend
     on the order of its terms, so each block of the kernel's product is the block of the reference's product.
   * `agg` — the degrees by a scatter-add over the targets, their inverse square roots, the edge weights gathered from
     them, the rows of the product gathered at the sources, scaled, and scatter-added at the targets — is the SAME chain of
     host operations in both programs. It is applied to equal products and is never opened.
   * `epi` adds the bias, clamps below at zero and takes the log-softmax of each row, stably (row maximum, shifted
     exponentials, their sum, its logarithm). The kernel does it ten blocks of rows at a time, the reference on the whole
     array; each entry depends on its own row only, and the reference's extra maximum against minus infinity and its sum
     started from zero change nothing.
   No law of the extended reals beyond commutativity and associativity of the sum is used, so the precondition (finite
   inputs) is never opened. The idealization rewrote nothing, so `preserves` holds trivially. -/
import proofs.«167426_j22247930594050_1_alg».proof.Defs
import proofs.«167426_j22247930594050_1_alg».proof.Proof.Gen.Kernel
import proofs.«167426_j22247930594050_1_alg».proof.Proof.Gen.Kernel.Frame
import proofs.«167426_j22247930594050_1_alg».proof.Proof.Gen.KernelIdeal
import proofs.«167426_j22247930594050_1_alg».proof.Proof.Gen.KernelIdeal.Frame
import proofs.«167426_j22247930594050_1_alg».proof.Proof.Gen.ReferenceIdeal
import proofs.«167426_j22247930594050_1_alg».proof.Proof.Gen.Pre_finite_inputs
import proofs.«167426_j22247930594050_1_alg».proof.Proof.KernelRun
import proofs.«167426_j22247930594050_1_alg».proof.Proof.KernelValue
import proofs.«167426_j22247930594050_1_alg».proof.Proof.RefStages
import proofs.«167426_j22247930594050_1_alg».proof.Proof.RefValue
import Idealize.ShloMosaic.Adequacy
import Idealize.ShloMosaic.Init

noncomputable section

namespace Cert.Proof

open Idealize.ShloMosaic Idealize.SL.Sem

/-- The kernel as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a sequence of host operations: its run, the result forgotten. -/
theorem frame_ri : Cert.frame_ReferenceIdeal := fun m ρ _ =>
  (θ_run Cert.ReferenceIdeal.defs _ _).mono (fun _ h c => (h c).2) (Cert.GcnRefRun.run (F := Ideal) m ρ)

/-- From memories that agree on the four arguments both programs end with `epi (agg edges (dense x w)) bias` in their
    result arrays: the kernel by its two regions' blocks and the host chain between them, the reference by its host
    operations read stage by stage. -/
theorem algebraic : Cert.algebraic_KernelIdeal_ReferenceIdeal := by
  intro m ρ m' ρ' _ hagree
  refine ⟨fun c => Cert.GcnBridge.result m c, ?_, ?_⟩
  · exact (θ_run Cert.KernelIdeal.defs _ _).mono
      (fun r h c => ⟨(h c).1.trans (Cert.GcnBridge.kernel_result m ρ c), (h c).2⟩)
      (Cert.KernelIdeal.GenP.run_named m ρ)
  · refine (θ_run Cert.ReferenceIdeal.defs _ _).mono (fun r h c => ⟨(h c).1.trans ?_, (h c).2⟩)
      (Cert.GcnRefRun.run (F := Ideal) m' ρ')
    rw [Cert.GcnRef.reference_value,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
